-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S128x8192 : Shape := ⟨2, ![128, 8192]⟩
abbrev S4096x8192x1 : Shape := ⟨3, ![4096, 8192, 1]⟩
abbrev S4096x8192x3 : Shape := ⟨3, ![4096, 8192, 3]⟩

abbrev nBuf : Space → Nat
  | .hbm => 8
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192x1, .f32⟩
  | .hbm, ⟨5, _⟩ => ⟨S4096x8192x1, .f32⟩
  | .hbm, ⟨6, _⟩ => ⟨S4096x8192x1, .f32⟩
  | .hbm, ⟨7, _⟩ => ⟨S4096x8192x3, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  iota_S128x8192_d1_w32 : S128x8192.Iotas .tc 32 [1]
  rotates_S128x8192_d1 : S128x8192.Rotates 1 none
  bcast_S4096x8192_S4096x8192x1_0_1 : S4096x8192.BroadcastsInDim S4096x8192x1 (![0, 1] : Fin 2 → Fin S4096x8192x1.rank)
  concatenates_S4096x8192x1_S4096x8192x1_S4096x8192x1_S4096x8192x3_d2 : Shape.Concatenates [S4096x8192x1, S4096x8192x1, S4096x8192x1] S4096x8192x3 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S4096x8192.size a
  hwx0_3 : ∀ i : grid0.Coords, EltTy.bits .f32 = 32 ∨ (Rect.block (s := S4096x8192) S128x8192.size (cc0_transform_3 i) (hinb0_3 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S128x8192.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S128x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096x8191 : Shape := ⟨2, ![4096, 8191]⟩
abbrev S_ : Shape := ⟨0, ![]⟩
abbrev S4096x8192x1 : Shape := ⟨3, ![4096, 8192, 1]⟩
abbrev S4096x8192x3 : Shape := ⟨3, ![4096, 8192, 3]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8191, .f32⟩
  | .hbm, ⟨2, _⟩ => ⟨S_, .i32⟩
  | .hbm, ⟨3, _⟩ => ⟨S_, .f32⟩
  | .hbm, ⟨4, _⟩ => ⟨S4096x8192, .f32⟩
  | .hbm, ⟨5, _⟩ => ⟨S4096x8191, .f32⟩
  | .hbm, ⟨6, _⟩ => ⟨S_, .i32⟩
  | .hbm, ⟨7, _⟩ => ⟨S_, .f32⟩
  | .hbm, ⟨8, _⟩ => ⟨S4096x8192, .f32⟩
  | .hbm, ⟨9, _⟩ => ⟨S4096x8192x1, .f32⟩
  | .hbm, ⟨10, _⟩ => ⟨S4096x8192x1, .f32⟩
  | .hbm, ⟨11, _⟩ => ⟨S4096x8192x1, .f32⟩
  | .hbm, ⟨12, _⟩ => ⟨S4096x8192x3, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call1_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  slices_S4096x8192_S4096x8191_0_0 : S4096x8192.Slices ![0, 0] S4096x8191
  pads_S4096x8191_S4096x8192_000_100 : S4096x8191.Pads (![0, 1] : Fin 2 → Nat) ![0, 0] ![0, 0] S4096x8192
  h_S_ : 0 < S_.numel
  slices_S4096x8192_S4096x8191_0_1 : S4096x8192.Slices ![0, 1] S4096x8191
  pads_S4096x8191_S4096x8192_000_010 : S4096x8191.Pads (![0, 0] : Fin 2 → Nat) ![0, 1] ![0, 0] S4096x8192
  bcast_S4096x8192_S4096x8192x1_0_1 : S4096x8192.BroadcastsInDim S4096x8192x1 (![0, 1] : Fin 2 → Fin S4096x8192x1.rank)
  concatenates_S4096x8192x1_S4096x8192x1_S4096x8192x1_S4096x8192x3_d2 : Shape.Concatenates [S4096x8192x1, S4096x8192x1, S4096x8192x1] S4096x8192x3 2

variable [Facts₀]

class Facts : Prop extends Facts₀ where

variable [Facts]
-- ==== Proof.KernelRun.lean ====
/-
  The run of the program: one region over 32 row tiles, then four host operations.

  The region's body loads its tile x (128 rows, all 8192 columns) and stores three tiles: x with its columns rotated one
  place right and the wrapped column masked (the first result), x itself (the second), and x with its columns rotated one
  place left and the wrapped column masked (the third). Each store covers its whole buffer, so after the body each
  result buffer holds exactly the stored value, and the input buffer is untouched. The region reads only the argument
  array and writes only its three result arrays; the host operations after it read those three and write four further
  buffers. So the argument array ends as it was launched, every execution terminates, and each result array is, tile by
  tile, what the body stored.

  Everything here holds for any reading of the floats (the body's values are carried as the named payloads).
-/
import proofs.«127405_j82626580840944_1_alg».proof.Proof.Gen.Kernel.Launch
import proofs.«127405_j82626580840944_1_alg».proof.Proof.Gen.Kernel.Skeleton
import proofs.«127405_j82626580840944_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core c's buffers hold when the region starts: nothing runs before it, so the launch contents. -/
abbrev atStart (c : Dev nD) : Valuation τ sig (Elt F) :=
  StableHlo.after (List.flatten ([] : List (List (HloOp τ sig (Elt F))))) (fun b => m (c, b))
/-- The same, read at a buffer of the core. -/
abbrev held (c : Dev nD) (b : Ref sig .tc) : Buf (Elt F) ((c : Thread nD τ).loc b) := atStart m c (Proc.devRef .tc b)

theorem held_eq (c : Dev nD) (b : Ref sig .tc) : held m c b = m ((c : Thread nD τ).loc b) := rfl

/-- The four operations after the region allocate nothing. -/
theorem tail_fresh : (hostOps1 : List (HloOp τ sig (Elt F))).Forall fun op => op.fresh = ∅ := by
  simp only [List.Forall]; repeat' constructor

/-- The program is its region continued by the four host operations. -/
theorem main_around (𝒱₀ : Variants) :
    Pipeline.HMainK (Ix := Unit) (Name := ℕ) (U := UR sig nD τ) (Lvl := ℕ) cfgs 0 defs₀ 𝒱₀ m (main (F := F)) (held m)
      (fun _ => Pipeline.chain [StableHlo.seq hostOps1]) :=
  Pipeline.hmain_around cfgs 0 defs₀ 𝒱₀ m main [] [hostOps1] (by simp only [List.Forall]) (by simp only [List.Forall]) main_chain

/-- The operations after the region touch only unscoped buffers of the core. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp tail_fresh) op hop

/-- None of them writes the argument array or one of the region's three result arrays: each writes its own result. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; fin_cases w <;> simp only [StableHlo.unary_writes, StableHlo.nary_writes, Finset.mem_singleton] <;> exact StableHlo.devRef_ne_of_ne (by decide)

/-! ## Tiles -/

/-- Window w's tile at grid point t, read off the array the region finds. -/
def tile (c : Dev nD) (w : Fin cfg0.W) (t : Fin cfg0.N) : ((cfg0.win w).xblock (cfg0.grid.coords t)).Idx → Elt F (cfg0.win w).elt :=
  ((cfg0.win w).blk t).view.read (Elt F) (held m c (Pipeline.arrRef spec0 w))

/-- The whole of a tile-sized buffer. -/
abbrev whole : Rect S128x8192 := Rect.unit (s := S128x8192) ![0, 0] S128x8192.size inb_S128x8192_S128x8192_0_0

theorem origin : (![0, 0] : Fin 2 → Nat) = fun _ => 0 := by funext a; fin_cases a <;> rfl

/-- One store of the whole buffer covers it. -/
theorem whole_covers (p : Vec F S128x8192 .f32) (y : S128x8192.Idx) :
    ∃ pc ∈ ([⟨whole, p⟩] : List (View.Piece (Elt F) S128x8192 .f32)), y ∈ pc.1.set :=
  View.cover_of_tiled [⟨whole, p⟩] S128x8192.size (by rfl) y

/-- A load of a whole buffer reads the buffer's contents. -/
theorem loaded_whole (v : View sig .tc .vmem S128x8192 .f32) (f : v.ty.Contents (Elt F)) :
    View.readAt (Elt F) v whole.toLoadRect f = v.read (Elt F) f :=
  (View.readAt_eq_ld v f whole).trans (View.ld_unit_zero origin _ _)

/-- A store of a whole buffer leaves the stored value, whatever the buffer held. -/
theorem stored_whole (v : View sig .tc .vmem S128x8192 .f32) (f : v.ty.Contents (Elt F)) (p : Vec F S128x8192 .f32) :
    v.read (Elt F) (v.writes (Elt F) f [⟨whole, p⟩]) = p :=
  (View.read_writes_eq_canon v f _ (whole_covers p)).trans (View.canon_unit_zero origin _ p)

/-! ## The body -/

set_option maxHeartbeats 1000000 in
/-- The body on whole buffers: given the input buffer at x and the three result buffers at anything, it ends with the
    input buffer still at x and the result buffers at the first payload of x, x, and the second payload of x. -/
theorem body_triple (c : Dev nD) (E : Set ℕ) (i : grid0.Coords)
    (a1 : Memref sig .tc .vmem S128x8192 .f32) (h1 : a1.IsWhole) (a2 : Memref sig .tc .vmem S128x8192 .f32) (h2 : a2.IsWhole)
    (a3 : Memref sig .tc .vmem S128x8192 .f32) (h3 : a3.IsWhole) (a4 : Memref sig .tc .vmem S128x8192 .f32) (h4 : a4.IsWhole)
    (x : Vec F S128x8192 .f32) (K : PUnit → sProp 𝕄) :
    iprop(owns (c : Thread nD τ) a1 fullShare x ∗ (∃ d, owns (c : Thread nD τ) a2 fullShare d)
        ∗ (∃ d, owns (c : Thread nD τ) a3 fullShare d) ∗ (∃ d, owns (c : Thread nD τ) a4 fullShare d)
        ∗ (iprop(owns (c : Thread nD τ) a1 fullShare x ∗ owns (c : Thread nD τ) a2 fullShare (k0_pay1 x)
            ∗ owns (c : Thread nD τ) a3 fullShare x ∗ owns (c : Thread nD τ) a4 fullShare (k0_pay2 x)) -∗ K ⟨⟩))
      ⊢ wp frame (wpE (defs₀ (F := F)) Variants.none c none) E (cc0__ngram_kernel i a1 h1 a2 h2 a3 h3 a4 h4) K := by
  simp only [cc0__ngram_kernel_eq_skeleton]; unfold cc0__ngram_kernel_skel
  unfold owns
  iintro ⟨⟨%f1, %hf1, H1⟩, ⟨%d2, %f2, -, H2⟩, ⟨%d3, %f3, -, H3⟩, ⟨%d4, %f4, -, H4⟩, Hk⟩
  subst hf1
  sl_exec
  sl_step
  iapply Hk
  isplitl [H1]
  · iexists f1; isplitr; · ipureintro; rfl
    iexact H1
  isplitl [H2]
  · iexists _; isplitr; swap; · iexact H2
    ipureintro; rw [stored_whole, loaded_whole]
  isplitl [H3]
  · iexists _; isplitr; swap; · iexact H3
    ipureintro; rw [stored_whole, loaded_whole]
  iexists _; isplitr; swap; · iexact H4
  ipureintro; rw [stored_whole, loaded_whole]

/-! ## What each buffer holds after the body, point by point -/

/-- On core c: the arrays as the region finds them; after the body at point t the input buffer at its tile, the
    three result buffers at the first payload of the tile, the tile, and the second payload of the tile; the region's
    other resources pass through untouched; nothing is owed to another core. -/
def data (_ : Fin 1) (c : Dev nD) : Dat τ (Elt F) Unit ℕ (UR sig nD τ) ℕ cfg0 c where
  A w := held m c (Pipeline.arrRef spec0 w)
  after w t := match w with
    | ⟨0, _⟩ => tile m c 0 t
    | ⟨1, _⟩ => k0_pay1 (tile m c 0 t)
    | ⟨2, _⟩ => tile m c 0 t
    | ⟨3, _⟩ => k0_pay2 (tile m c 0 t)
  Φ _ := Pipeline.ΦA spec0 c
  q _ := fullShare
  owed _ := 0

theorem data_A (c : Dev nD) (w : Fin cfg0.W) : (data m 0 c).A w = held m c (Pipeline.arrRef spec0 w) := by
  dsimp only [data]

theorem after_in (c : Dev nD) (t : Fin cfg0.N) : (data m 0 c).after 0 t = tile m c 0 t := by dsimp only [data]
theorem after_left (c : Dev nD) (t : Fin cfg0.N) : (data m 0 c).after 1 t = k0_pay1 (tile m c 0 t) := by dsimp only [data]
theorem after_mid (c : Dev nD) (t : Fin cfg0.N) : (data m 0 c).after 2 t = tile m c 0 t := by dsimp only [data]
theorem after_right (c : Dev nD) (t : Fin cfg0.N) : (data m 0 c).after 3 t = k0_pay2 (tile m c 0 t) := by dsimp only [data]

/-- The input is fetched at every point, so its buffer holds the point's tile when the body starts. -/
theorem before_in (c : Dev nD) (t : Fin cfg0.N) (d) : (data m 0 c).before 0 t d = tile m c 0 t := by
  rw [(data m 0 c).before_fetched 0 t (fetch0_0 t) d]
  unfold Dat.fetched Dat.blockOf tile
  rw [data_A]
  rfl

/-! ## The body at a grid point -/

/-- What the body is handed at point t, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d)))

/-- and what it hands back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t))

theorem body_at (c : Dev nD) (t : Fin cfg0.N) :
    handed m c t ⊢ wp frame (wpE (defs₀ (F := F)) Variants.none c none) Set.univ (bodyAt0 t) (fun _ => returned m c t) := by
  unfold handed returned bodyAt0
  simp only [before_in]
  rw [show (data m 0 c).Φ t.succ = (data m 0 c).Φ t.castSucc from rfl,
    show (data m 0 c).owesAt () t.succ = (data m 0 c).owesAt () t.castSucc from rfl,
    after_in, after_left, after_mid, after_right]
  iintro ⟨HΦ, Ho, ⟨%d0, H0⟩, ⟨%d1, H1⟩, ⟨%d2, H2⟩, ⟨%d3, H3⟩⟩
  iapply (body_triple c Set.univ (grid0.coords t) _ _ _ _ _ _ _ _ (tile m c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_everywhere (c : Dev nD) : BodyObligation (data (F := F) m 0 c) (defs₀ (F := F)) Variants.none () Set.univ := fun t => by
  rw [bigSep_W0, bigSep_W0]
  exact body_at m c t

/-! ## The run -/

set_option backward.isDefEq.respectTransparency.types false in
/-- Every weakly fair execution of the program terminates; the argument array and the three result arrays end at what
    the write-backs make of them, and every other unscoped buffer at what the four host operations after the region
    leave. -/
theorem run : θ_run defs (onTc (τ := τ) (main (F := F))) (s₀ m ρ)
    (Pipeline.FramePost cfgs (data m) 0 (Pipeline.afterTail₀ cfgs (data m) 0 (atStart m) [hostOps1])) :=
  Pipeline.θ_run_frame_around cfgs (data m) (0 : Fin 1) launch0 defs₀ Variants.none m ρ main
    (hbody := fun c => (body_everywhere m c).loose) (hshare := fun c => (data m 0 c).share_full fun _ => rfl)
    (howed := fun _ _ => rfl) (V₀ := atStart m) (opss := [hostOps1]) (hsub := tail_sub) (hfresh := tail_allocates_nothing)
    (hkeep := tail_keeps_arrays) (hmain := main_around m Variants.none) (hA := data_A m) (hΦ := fun _ _ => rfl)

/-- The argument array is the input window's array, which no write-back touches: it ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((data m 0 c).arrAt_in 0 rfl _).trans (data_A m c 0))) (run m ρ)

end Cert.Kernel.Run

end
-- ==== Proof.KernelIdealRun.lean ====
/-
  The run of the program: one region over 32 row tiles, then four host operations.

  The region's body loads its tile x (128 rows, all 8192 columns) and stores three tiles: x with its columns rotated one
  place right and the wrapped column masked (the first result), x itself (the second), and x with its columns rotated one
  place left and the wrapped column masked (the third). Each store covers its whole buffer, so after the body each
  result buffer holds exactly the stored value, and the input buffer is untouched. The region reads only the argument
  array and writes only its three result arrays; the host operations after it read those three and write four further
  buffers. So the argument array ends as it was launched, every execution terminates, and each result array is, tile by
  tile, what the body stored.

  Everything here holds for any reading of the floats (the body's values are carried as the named payloads).
-/
import proofs.«127405_j82626580840944_1_alg».proof.Proof.Gen.KernelIdeal.Launch
import proofs.«127405_j82626580840944_1_alg».proof.Proof.Gen.KernelIdeal.Skeleton
import proofs.«127405_j82626580840944_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core c's buffers hold when the region starts: nothing runs before it, so the launch contents. -/
abbrev atStart (c : Dev nD) : Valuation τ sig (Elt F) :=
  StableHlo.after (List.flatten ([] : List (List (HloOp τ sig (Elt F))))) (fun b => m (c, b))
/-- The same, read at a buffer of the core. -/
abbrev held (c : Dev nD) (b : Ref sig .tc) : Buf (Elt F) ((c : Thread nD τ).loc b) := atStart m c (Proc.devRef .tc b)

theorem held_eq (c : Dev nD) (b : Ref sig .tc) : held m c b = m ((c : Thread nD τ).loc b) := rfl

/-- The four operations after the region allocate nothing. -/
theorem tail_fresh : (hostOps1 : List (HloOp τ sig (Elt F))).Forall fun op => op.fresh = ∅ := by
  simp only [List.Forall]; repeat' constructor

/-- The program is its region continued by the four host operations. -/
theorem main_around (𝒱₀ : Variants) :
    Pipeline.HMainK (Ix := Unit) (Name := ℕ) (U := UR sig nD τ) (Lvl := ℕ) cfgs 0 defs₀ 𝒱₀ m (main (F := F)) (held m)
      (fun _ => Pipeline.chain [StableHlo.seq hostOps1]) :=
  Pipeline.hmain_around cfgs 0 defs₀ 𝒱₀ m main [] [hostOps1] (by simp only [List.Forall]) (by simp only [List.Forall]) main_chain

/-- The operations after the region touch only unscoped buffers of the core. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp tail_fresh) op hop

/-- None of them writes the argument array or one of the region's three result arrays: each writes its own result. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; fin_cases w <;> simp only [StableHlo.unary_writes, StableHlo.nary_writes, Finset.mem_singleton] <;> exact StableHlo.devRef_ne_of_ne (by decide)

/-! ## Tiles -/

/-- Window w's tile at grid point t, read off the array the region finds. -/
def tile (c : Dev nD) (w : Fin cfg0.W) (t : Fin cfg0.N) : ((cfg0.win w).xblock (cfg0.grid.coords t)).Idx → Elt F (cfg0.win w).elt :=
  ((cfg0.win w).blk t).view.read (Elt F) (held m c (Pipeline.arrRef spec0 w))

/-- The whole of a tile-sized buffer. -/
abbrev whole : Rect S128x8192 := Rect.unit (s := S128x8192) ![0, 0] S128x8192.size inb_S128x8192_S128x8192_0_0

theorem origin : (![0, 0] : Fin 2 → Nat) = fun _ => 0 := by funext a; fin_cases a <;> rfl

/-- One store of the whole buffer covers it. -/
theorem whole_covers (p : Vec F S128x8192 .f32) (y : S128x8192.Idx) :
    ∃ pc ∈ ([⟨whole, p⟩] : List (View.Piece (Elt F) S128x8192 .f32)), y ∈ pc.1.set :=
  View.cover_of_tiled [⟨whole, p⟩] S128x8192.size (by rfl) y

/-- A load of a whole buffer reads the buffer's contents. -/
theorem loaded_whole (v : View sig .tc .vmem S128x8192 .f32) (f : v.ty.Contents (Elt F)) :
    View.readAt (Elt F) v whole.toLoadRect f = v.read (Elt F) f :=
  (View.readAt_eq_ld v f whole).trans (View.ld_unit_zero origin _ _)

/-- A store of a whole buffer leaves the stored value, whatever the buffer held. -/
theorem stored_whole (v : View sig .tc .vmem S128x8192 .f32) (f : v.ty.Contents (Elt F)) (p : Vec F S128x8192 .f32) :
    v.read (Elt F) (v.writes (Elt F) f [⟨whole, p⟩]) = p :=
  (View.read_writes_eq_canon v f _ (whole_covers p)).trans (View.canon_unit_zero origin _ p)

/-! ## The body -/

set_option maxHeartbeats 1000000 in
/-- The body on whole buffers: given the input buffer at x and the three result buffers at anything, it ends with the
    input buffer still at x and the result buffers at the first payload of x, x, and the second payload of x. -/
theorem body_triple (c : Dev nD) (E : Set ℕ) (i : grid0.Coords)
    (a1 : Memref sig .tc .vmem S128x8192 .f32) (h1 : a1.IsWhole) (a2 : Memref sig .tc .vmem S128x8192 .f32) (h2 : a2.IsWhole)
    (a3 : Memref sig .tc .vmem S128x8192 .f32) (h3 : a3.IsWhole) (a4 : Memref sig .tc .vmem S128x8192 .f32) (h4 : a4.IsWhole)
    (x : Vec F S128x8192 .f32) (K : PUnit → sProp 𝕄) :
    iprop(owns (c : Thread nD τ) a1 fullShare x ∗ (∃ d, owns (c : Thread nD τ) a2 fullShare d)
        ∗ (∃ d, owns (c : Thread nD τ) a3 fullShare d) ∗ (∃ d, owns (c : Thread nD τ) a4 fullShare d)
        ∗ (iprop(owns (c : Thread nD τ) a1 fullShare x ∗ owns (c : Thread nD τ) a2 fullShare (k0_pay1 x)
            ∗ owns (c : Thread nD τ) a3 fullShare x ∗ owns (c : Thread nD τ) a4 fullShare (k0_pay2 x)) -∗ K ⟨⟩))
      ⊢ wp frame (wpE (defs₀ (F := F)) Variants.none c none) E (cc0__ngram_kernel i a1 h1 a2 h2 a3 h3 a4 h4) K := by
  simp only [cc0__ngram_kernel_eq_skeleton]; unfold cc0__ngram_kernel_skel
  unfold owns
  iintro ⟨⟨%f1, %hf1, H1⟩, ⟨%d2, %f2, -, H2⟩, ⟨%d3, %f3, -, H3⟩, ⟨%d4, %f4, -, H4⟩, Hk⟩
  subst hf1
  sl_exec
  sl_step
  iapply Hk
  isplitl [H1]
  · iexists f1; isplitr; · ipureintro; rfl
    iexact H1
  isplitl [H2]
  · iexists _; isplitr; swap; · iexact H2
    ipureintro; rw [stored_whole, loaded_whole]
  isplitl [H3]
  · iexists _; isplitr; swap; · iexact H3
    ipureintro; rw [stored_whole, loaded_whole]
  iexists _; isplitr; swap; · iexact H4
  ipureintro; rw [stored_whole, loaded_whole]

/-! ## What each buffer holds after the body, point by point -/

/-- On core c: the arrays as the region finds them; after the body at point t the input buffer at its tile, the
    three result buffers at the first payload of the tile, the tile, and the second payload of the tile; the region's
    other resources pass through untouched; nothing is owed to another core. -/
def data (_ : Fin 1) (c : Dev nD) : Dat τ (Elt F) Unit ℕ (UR sig nD τ) ℕ cfg0 c where
  A w := held m c (Pipeline.arrRef spec0 w)
  after w t := match w with
    | ⟨0, _⟩ => tile m c 0 t
    | ⟨1, _⟩ => k0_pay1 (tile m c 0 t)
    | ⟨2, _⟩ => tile m c 0 t
    | ⟨3, _⟩ => k0_pay2 (tile m c 0 t)
  Φ _ := Pipeline.ΦA spec0 c
  q _ := fullShare
  owed _ := 0

theorem data_A (c : Dev nD) (w : Fin cfg0.W) : (data m 0 c).A w = held m c (Pipeline.arrRef spec0 w) := by
  dsimp only [data]

theorem after_in (c : Dev nD) (t : Fin cfg0.N) : (data m 0 c).after 0 t = tile m c 0 t := by dsimp only [data]
theorem after_left (c : Dev nD) (t : Fin cfg0.N) : (data m 0 c).after 1 t = k0_pay1 (tile m c 0 t) := by dsimp only [data]
theorem after_mid (c : Dev nD) (t : Fin cfg0.N) : (data m 0 c).after 2 t = tile m c 0 t := by dsimp only [data]
theorem after_right (c : Dev nD) (t : Fin cfg0.N) : (data m 0 c).after 3 t = k0_pay2 (tile m c 0 t) := by dsimp only [data]

/-- The input is fetched at every point, so its buffer holds the point's tile when the body starts. -/
theorem before_in (c : Dev nD) (t : Fin cfg0.N) (d) : (data m 0 c).before 0 t d = tile m c 0 t := by
  rw [(data m 0 c).before_fetched 0 t (fetch0_0 t) d]
  unfold Dat.fetched Dat.blockOf tile
  rw [data_A]
  rfl

/-! ## The body at a grid point -/

/-- What the body is handed at point t, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d)))

/-- and what it hands back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t))

theorem body_at (c : Dev nD) (t : Fin cfg0.N) :
    handed m c t ⊢ wp frame (wpE (defs₀ (F := F)) Variants.none c none) Set.univ (bodyAt0 t) (fun _ => returned m c t) := by
  unfold handed returned bodyAt0
  simp only [before_in]
  rw [show (data m 0 c).Φ t.succ = (data m 0 c).Φ t.castSucc from rfl,
    show (data m 0 c).owesAt () t.succ = (data m 0 c).owesAt () t.castSucc from rfl,
    after_in, after_left, after_mid, after_right]
  iintro ⟨HΦ, Ho, ⟨%d0, H0⟩, ⟨%d1, H1⟩, ⟨%d2, H2⟩, ⟨%d3, H3⟩⟩
  iapply (body_triple c Set.univ (grid0.coords t) _ _ _ _ _ _ _ _ (tile m c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_everywhere (c : Dev nD) : BodyObligation (data (F := F) m 0 c) (defs₀ (F := F)) Variants.none () Set.univ := fun t => by
  rw [bigSep_W0, bigSep_W0]
  exact body_at m c t

/-! ## The run -/

set_option backward.isDefEq.respectTransparency.types false in
/-- Every weakly fair execution of the program terminates; the argument array and the three result arrays end at what
    the write-backs make of them, and every other unscoped buffer at what the four host operations after the region
    leave. -/
theorem run : θ_run defs (onTc (τ := τ) (main (F := F))) (s₀ m ρ)
    (Pipeline.FramePost cfgs (data m) 0 (Pipeline.afterTail₀ cfgs (data m) 0 (atStart m) [hostOps1])) :=
  Pipeline.θ_run_frame_around cfgs (data m) (0 : Fin 1) launch0 defs₀ Variants.none m ρ main
    (hbody := fun c => (body_everywhere m c).loose) (hshare := fun c => (data m 0 c).share_full fun _ => rfl)
    (howed := fun _ _ => rfl) (V₀ := atStart m) (opss := [hostOps1]) (hsub := tail_sub) (hfresh := tail_allocates_nothing)
    (hkeep := tail_keeps_arrays) (hmain := main_around m Variants.none) (hA := data_A m) (hΦ := fun _ _ => rfl)

/-- The argument array is the input window's array, which no write-back touches: it ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((data m 0 c).arrAt_in 0 rfl _).trans (data_A m c 0))) (run m ρ)

end Cert.KernelIdeal.Run

end
-- ==== Proof.Neighbours.lean ====
/-
  The column neighbours of a matrix. For a matrix x with C columns, fromLeft z x holds x (r, c - 1) at (r, c) and the
  fill value z in column 0; fromRight z x holds x (r, c + 1) at (r, c) and z in the last column. Two programs build
  these two matrices in different ways, and this module reads each way at an index:

  * a cyclic rotation of the columns by one place (by C - 1 places), which wraps the last column round to the first (the
    first round to the last), followed by a select on "the column number is positive" ("is below C - 1") that puts the
    fill value exactly where the rotation wrapped;
  * cutting off the last (the first) column and padding one column of the fill value in front (behind).

  Nothing here is arithmetic on the entries: every entry of a result is one entry of x or the fill value, so the
  statements hold for entries of any type.
-/
import Idealize.ShloMosaic.PureOps.Ideal
import Idealize.ShloMosaic.Lib.ValueIdx
import Idealize.ShloMosaic.Lib.Pipeline.Value
import Idealize.ShloMosaic.Lib.StableHlo.Predicate

noncomputable section

namespace Cert.Neighbours

open Idealize.ShloMosaic Idealize.ShloMosaic.ValueIdx

variable {α : Type}

/-- A matrix of R rows and C columns, as a shape. -/
abbrev Mat (R C : Nat) : Shape := ⟨2, ![R, C]⟩

/-- Entry (r, c) is x (r, c - 1); column 0 holds z. -/
def fromLeft {R C : Nat} (z : α) (x : (Mat R C).Idx → α) : (Mat R C).Idx → α :=
  fun i => if (i 1).val = 0 then z else x (ix2 (i 0) ⟨(i 1).val - 1, by have := idx2_lt1 i; omega⟩)

/-- Entry (r, c) is x (r, c + 1); column C - 1 holds z. -/
def fromRight {R C : Nat} (z : α) (x : (Mat R C).Idx → α) : (Mat R C).Idx → α :=
  fun i => if h : (i 1).val + 1 < C then x (ix2 (i 0) ⟨(i 1).val + 1, h⟩) else z

theorem fromLeft_apply {R C : Nat} (z : α) (x : (Mat R C).Idx → α) (r : Fin R) (c : Fin C) :
    fromLeft z x (ix2 r c) = if c.val = 0 then z else x (ix2 r ⟨c.val - 1, by omega⟩) := rfl

theorem fromRight_apply {R C : Nat} (z : α) (x : (Mat R C).Idx → α) (r : Fin R) (c : Fin C) :
    fromRight z x (ix2 r c) = if h : c.val + 1 < C then x (ix2 r ⟨c.val + 1, h⟩) else z := rfl

/-! ## The column number as a word, compared with the two edges -/

/-- A column number below 2 ^ 31 is positive as a signed word exactly when it is positive. -/
theorem sgt_zero (n : Nat) (hn : n < 2 ^ 31) :
    IntOp.cmpi .sgt (BitVec.ofNat 32 n) 0#32 = if 0 < n then 1#1 else 0#1 := by
  have hn' : (BitVec.ofNat 32 n).toNat = n := by
    rw [BitVec.toNat_ofNat]; exact Nat.mod_eq_of_lt (by omega)
  by_cases h : 0 < n
  · rw [if_pos h]
    exact (StableHlo.Predicate.sgt_iff_toNat (by rw [hn']; exact hn) (by decide)).mpr (by rw [hn']; exact h)
  · rw [if_neg h]
    refine eq_zero_of_ne_one fun h1 => h ?_
    have := (StableHlo.Predicate.sgt_iff_toNat (by rw [hn']; exact hn) (by decide)).mp h1
    rw [hn'] at this; exact this

/-- A column number below 2 ^ 31 is below a bound b < 2 ^ 31 as a signed word exactly when it is below b. -/
theorem slt_bound (n b : Nat) (hn : n < 2 ^ 31) (hb : b < 2 ^ 31) :
    IntOp.cmpi .slt (BitVec.ofNat 32 n) (BitVec.ofNat 32 b) = if n < b then 1#1 else 0#1 := by
  have hn' : (BitVec.ofNat 32 n).toNat = n := by
    rw [BitVec.toNat_ofNat]; exact Nat.mod_eq_of_lt (by omega)
  have hb' : (BitVec.ofNat 32 b).toNat = b := by
    rw [BitVec.toNat_ofNat]; exact Nat.mod_eq_of_lt (by omega)
  by_cases h : n < b
  · rw [if_pos h]
    exact (StableHlo.Predicate.slt_iff_toNat (by rw [hn']; exact hn) (by rw [hb']; exact hb)).mpr (by rw [hn', hb']; exact h)
  · rw [if_neg h]
    refine eq_zero_of_ne_one fun h1 => h ?_
    have := (StableHlo.Predicate.slt_iff_toNat (by rw [hn']; exact hn) (by rw [hb']; exact hb)).mp h1
    rw [hn', hb'] at this; exact this

/-! ## Rotation and mask -/

/-- Rotating the columns one place to the right and putting z where the column number is not positive gives the left
    neighbours. At column c > 0 the rotation reads column (c + C - 1) mod C = c - 1. -/
theorem rotate_one_masked {R C : Nat} (hC : C < 2 ^ 31) (z : α) (x : (Mat R C).Idx → α)
    (hrot : (Mat R C).Rotates 1 none) (col : IVec (Mat R C) 32) (hcol : ∀ i, col i = BitVec.ofNat 32 (i 1).val) :
    select (cmpi .sgt col (broadcast (Mat R C) 0#32)) (dynamicRotate 1 1#32 none x hrot) (broadcast (Mat R C) z)
      = fromLeft z x := by
  funext i
  obtain ⟨r, c, rfl⟩ : ∃ (r : Fin R) (c : Fin C), i = ix2 r c := ⟨i 0, i 1, eq_ix2 i⟩
  have hc : c.val < C := c.isLt
  rw [fromLeft_apply]
  show Scalar.select (IntOp.cmpi .sgt (col (ix2 r c)) 0#32) _ z = _
  rw [hcol, show ((ix2 r c : (Mat R C).Idx) 1).val = c.val from rfl, sgt_zero c.val (by omega)]
  by_cases h0 : c.val = 0
  · rw [if_neg (by omega), select_zero, if_pos h0]
  · rw [if_pos (by omega), select_one, if_neg h0]
    unfold dynamicRotate
    refine congrArg x (funext fun b => ?_)
    match b with
    | ⟨0, _⟩ => rfl
    | ⟨1, _⟩ =>
      refine Fin.ext ?_
      show (c.val + C - (1 + 0) % C) % C = c.val - 1
      have h1 : (1 + 0) % C = 1 := Nat.mod_eq_of_lt (by omega)
      rw [h1, show c.val + C - 1 = (c.val - 1) + C by omega, Nat.add_mod_right]
      exact Nat.mod_eq_of_lt (by omega)

/-- Rotating the columns C - 1 places to the right (one place to the left) and putting z where the column number is not
    below C - 1 gives the right neighbours. At column c < C - 1 the rotation reads column (c + C - (C - 1)) mod C = c + 1. -/
theorem rotate_last_masked {R C : Nat} (hC : C < 2 ^ 31) (hC0 : 0 < C) (z : α) (x : (Mat R C).Idx → α)
    (hrot : (Mat R C).Rotates 1 none) (col : IVec (Mat R C) 32) (hcol : ∀ i, col i = BitVec.ofNat 32 (i 1).val) :
    select (cmpi .slt col (broadcast (Mat R C) (BitVec.ofNat 32 (C - 1))))
        (dynamicRotate 1 (BitVec.ofNat 32 (C - 1)) none x hrot) (broadcast (Mat R C) z)
      = fromRight z x := by
  funext i
  obtain ⟨r, c, rfl⟩ : ∃ (r : Fin R) (c : Fin C), i = ix2 r c := ⟨i 0, i 1, eq_ix2 i⟩
  have hc : c.val < C := c.isLt
  rw [fromRight_apply]
  show Scalar.select (IntOp.cmpi .slt (col (ix2 r c)) (BitVec.ofNat 32 (C - 1))) _ z = _
  rw [hcol, show ((ix2 r c : (Mat R C).Idx) 1).val = c.val from rfl, slt_bound c.val (C - 1) (by omega) (by omega)]
  by_cases h0 : c.val + 1 < C
  · rw [if_pos (by omega), select_one, dif_pos h0]
    unfold dynamicRotate
    refine congrArg x (funext fun b => ?_)
    match b with
    | ⟨0, _⟩ => rfl
    | ⟨1, _⟩ =>
      refine Fin.ext ?_
      show (c.val + C - ((BitVec.ofNat 32 (C - 1)).toNat + 0) % C) % C = c.val + 1
      have h1 : ((BitVec.ofNat 32 (C - 1)).toNat + 0) % C = C - 1 := by
        rw [Nat.add_zero, BitVec.toNat_ofNat, Nat.mod_eq_of_lt (show C - 1 < 2 ^ 32 by omega)]
        exact Nat.mod_eq_of_lt (by omega)
      rw [h1, show c.val + C - (C - 1) = c.val + 1 by omega]
      exact Nat.mod_eq_of_lt h0
  · rw [if_neg (by omega), select_zero, dif_neg h0]

/-! ## Cutting a column off and padding one on -/

/-- The matrix without its last column, with one column of the fill value padded in front, holds the left neighbours. -/
theorem pad_front_of_init {R C : Nat} (z : α) (x : (Mat R (C + 1)).Idx → α) {u : Shape} (v : u.Idx → α) (hu : 0 < u.numel)
    (hv : v (Shape.Idx.first hu) = z)
    (hs : (Mat R (C + 1)).Slices ![0, 0] (Mat R C)) (hp : (Mat R C).Pads (![0, 1] : Fin 2 → Nat) ![0, 0] ![0, 0] (Mat R (C + 1))) :
    pad (Mat R (C + 1)) ![0, 1] ![0, 0] ![0, 0] (extractStridedSlice (Mat R C) ![0, 0] x hs) v hp hu = fromLeft z x := by
  funext i
  obtain ⟨r, c, rfl⟩ : ∃ (r : Fin R) (c : Fin (C + 1)), i = ix2 r c := ⟨i 0, i 1, eq_ix2 i⟩
  have hc : c.val < C + 1 := c.isLt
  have hr : r.val < R := r.isLt
  rw [fromLeft_apply]
  unfold pad
  by_cases h0 : c.val = 0
  · rw [if_pos h0, dif_neg, hv]
    intro hin
    have := (hin 1).1
    change 1 ≤ c.val at this
    omega
  · rw [if_neg h0, dif_pos]
    · unfold extractStridedSlice
      refine congrArg x (funext fun b => ?_)
      match b with
      | ⟨0, _⟩ => exact Fin.ext (by show 0 + (r.val - 0) / (0 + 1) = r.val; omega)
      | ⟨1, _⟩ => exact Fin.ext (by show 0 + (c.val - 1) / (0 + 1) = c.val - 1; omega)
    · intro a
      match a with
      | ⟨0, _⟩ =>
        refine ⟨Nat.zero_le _, ?_, ?_⟩
        · show (r.val - 0) % (0 + 1) = 0; omega
        · show (r.val - 0) / (0 + 1) < R; omega
      | ⟨1, _⟩ =>
        refine ⟨?_, ?_, ?_⟩
        · show 1 ≤ c.val; omega
        · show (c.val - 1) % (0 + 1) = 0; omega
        · show (c.val - 1) / (0 + 1) < C; omega

/-- The matrix without its first column, with one column of the fill value padded behind, holds the right neighbours. -/
theorem pad_back_of_tail {R C : Nat} (z : α) (x : (Mat R (C + 1)).Idx → α) {u : Shape} (v : u.Idx → α) (hu : 0 < u.numel)
    (hv : v (Shape.Idx.first hu) = z)
    (hs : (Mat R (C + 1)).Slices ![0, 1] (Mat R C)) (hp : (Mat R C).Pads (![0, 0] : Fin 2 → Nat) ![0, 1] ![0, 0] (Mat R (C + 1))) :
    pad (Mat R (C + 1)) ![0, 0] ![0, 1] ![0, 0] (extractStridedSlice (Mat R C) ![0, 1] x hs) v hp hu = fromRight z x := by
  funext i
  obtain ⟨r, c, rfl⟩ : ∃ (r : Fin R) (c : Fin (C + 1)), i = ix2 r c := ⟨i 0, i 1, eq_ix2 i⟩
  have hc : c.val < C + 1 := c.isLt
  have hr : r.val < R := r.isLt
  rw [fromRight_apply]
  unfold pad
  by_cases h0 : c.val + 1 < C + 1
  · rw [dif_pos h0, dif_pos]
    · unfold extractStridedSlice
      refine congrArg x (funext fun b => ?_)
      match b with
      | ⟨0, _⟩ => exact Fin.ext (by show 0 + (r.val - 0) / (0 + 1) = r.val; omega)
      | ⟨1, _⟩ => exact Fin.ext (by show 1 + (c.val - 0) / (0 + 1) = c.val + 1; omega)
    · intro a
      match a with
      | ⟨0, _⟩ =>
        refine ⟨Nat.zero_le _, ?_, ?_⟩
        · show (r.val - 0) % (0 + 1) = 0; omega
        · show (r.val - 0) / (0 + 1) < R; omega
      | ⟨1, _⟩ =>
        refine ⟨Nat.zero_le _, ?_, ?_⟩
        · show (c.val - 0) % (0 + 1) = 0; omega
        · show (c.val - 0) / (0 + 1) < C; omega
  · rw [dif_neg h0, dif_neg, hv]
    intro hin
    have := (hin 1).2.2
    change (c.val - 0) / (0 + 1) < C at this
    omega

/-! ## Bands of rows -/

/-- Taking the left neighbours commutes with any selection of rows: the neighbour of an entry lies in the entry's own row. -/
theorem fromLeft_rows {R R' C : Nat} (z : α) (X : (Mat R C).Idx → α) (sel : Fin R' → Fin R) (y : (Mat R' C).Idx) :
    fromLeft z (fun y' : (Mat R' C).Idx => X (ix2 (sel (y' 0)) (y' 1))) y = fromLeft z X (ix2 (sel (y 0)) (y 1)) := rfl

/-- The same for the right neighbours. -/
theorem fromRight_rows {R R' C : Nat} (z : α) (X : (Mat R C).Idx → α) (sel : Fin R' → Fin R) (y : (Mat R' C).Idx) :
    fromRight z (fun y' : (Mat R' C).Idx => X (ix2 (sel (y' 0)) (y' 1))) y = fromRight z X (ix2 (sel (y 0)) (y 1)) := rfl

end Cert.Neighbours

end
-- ==== Proof.LibNary3.lean ====
/-
  A host operation that reads a literal family of THREE buffers (a join of three operands), at its own result buffer:
  its function applied to the three operands' contents, each read AT ITS OWN buffer. The general statement reads
  operand k at "the k-th buffer of the family", under a binder; with the family a literal of three the contents can be
  listed one by one, and what each operand's buffer holds can then be worked out by the rules for the operations before.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type}

/-- The result of an operation over the literal family x, a, b, at its result buffer y, is its function of the contents
    at x, at a and at b, in that order. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.KernelValue.lean ====
/-
  What the idealized program's three result arrays hold after the run, and what its host tail makes of them.

  The region's grid point t handles rows 128 t .. 128 t + 127 of the argument array x, all 8192 columns. Its first
  payload is the tile's left-neighbour matrix and its second the tile's right-neighbour matrix (with the body's fill
  value at the edge column); since a neighbour lies in the entry's own row, the left neighbours of a band of rows are
  the band of the left neighbours, so what point t writes back into each result array is the band of rows of ONE
  whole-array matrix: the left neighbours of x, x itself, the right neighbours of x. The 32 bands cover all 4096 rows
  (row r is in band r / 128), so each result array ends as that matrix. The host tail then gives each a unit last
  axis and joins the three along it.
-/
import proofs.«127405_j82626580840944_1_alg».proof.Proof.KernelIdealRun
import proofs.«127405_j82626580840944_1_alg».proof.Proof.Neighbours
import proofs.«127405_j82626580840944_1_alg».proof.Proof.LibNary3
import Idealize.ShloMosaic.Lib.StableHlo.Run
import Idealize.ShloMosaic.Lib.ValueIdx
import Idealize.ShloMosaic.PureOps.Ideal.Laws

set_option maxRecDepth 16384

noncomputable section

namespace Cert.KernelIdeal.Result

open Cert.KernelIdeal Cert.KernelIdeal.Gen Cert.KernelIdeal.Run Cert.Neighbours
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The body's fill value: the float whose word is zero. -/
abbrev fill : F .f32 := Scalar.ofBits .f32 0x00000000#32

/-! ## The payloads -/

theorem left_payload (x : Vec F S128x8192 .f32) : k0_pay1 x = fromLeft (R := 128) (C := 8192) (fill (F := F)) x := by
  unfold k0_pay1
  exact rotate_one_masked (R := 128) (C := 8192) (by norm_num) _ x rotates_S128x8192_d1 _
    (fun i => iota_single_apply .tc S128x8192 32 1 iota_S128x8192_d1_w32 i)

theorem right_payload (x : Vec F S128x8192 .f32) : k0_pay2 x = fromRight (R := 128) (C := 8192) (fill (F := F)) x := by
  unfold k0_pay2
  exact rotate_last_masked (R := 128) (C := 8192) (by norm_num) (by norm_num) _ x rotates_S128x8192_d1 _
    (fun i => iota_single_apply .tc S128x8192 32 1 iota_S128x8192_d1_w32 i)

/-! ## Tiles are bands of rows -/

theorem points : cfg0.N = 32 := N_0

/-- Row r of the tile at point t is row 128 t + r of the array. -/
def rowAt (t : Fin cfg0.N) (r : Fin 128) : Fin 4096 :=
  ⟨128 * t.val + r.val, by have ht : t.val < 32 := lt_of_lt_of_eq t.isLt points; have := r.isLt; omega⟩

/-- Every window's block index at point t is (t, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem emb_in (t : Fin cfg0.N) (y : S128x8192.Idx) : ((cfg0.win 0).blk t).view.emb y = ix2 (rowAt t (y 0)) (y 1) := by
  obtain ⟨e0, e1, -⟩ := index_facts t
  funext a; apply Fin.ext
  match a with
  | ⟨0, _⟩ => show win0_0.index t (0 : Fin 2) * 128 + 1 * (y 0).val = 128 * t.val + (y 0).val; omega
  | ⟨1, _⟩ => show win0_0.index t (1 : Fin 2) * 8192 + 1 * (y 1).val = (y 1).val; omega

theorem emb_left (t : Fin cfg0.N) (y : S128x8192.Idx) : ((cfg0.win 1).blk t).view.emb y = ix2 (rowAt t (y 0)) (y 1) := by
  obtain ⟨-, -, e0, e1, -⟩ := index_facts t
  funext a; apply Fin.ext
  match a with
  | ⟨0, _⟩ => show win0_1.index t (0 : Fin 2) * 128 + 1 * (y 0).val = 128 * t.val + (y 0).val; omega
  | ⟨1, _⟩ => show win0_1.index t (1 : Fin 2) * 8192 + 1 * (y 1).val = (y 1).val; omega

theorem emb_mid (t : Fin cfg0.N) (y : S128x8192.Idx) : ((cfg0.win 2).blk t).view.emb y = ix2 (rowAt t (y 0)) (y 1) := by
  obtain ⟨-, -, -, -, e0, e1, -⟩ := index_facts t
  funext a; apply Fin.ext
  match a with
  | ⟨0, _⟩ => show win0_2.index t (0 : Fin 2) * 128 + 1 * (y 0).val = 128 * t.val + (y 0).val; omega
  | ⟨1, _⟩ => show win0_2.index t (1 : Fin 2) * 8192 + 1 * (y 1).val = (y 1).val; omega

theorem emb_right (t : Fin cfg0.N) (y : S128x8192.Idx) : ((cfg0.win 3).blk t).view.emb y = ix2 (rowAt t (y 0)) (y 1) := by
  obtain ⟨-, -, -, -, -, -, e0, e1⟩ := index_facts t
  funext a; apply Fin.ext
  match a with
  | ⟨0, _⟩ => show win0_3.index t (0 : Fin 2) * 128 + 1 * (y 0).val = 128 * t.val + (y 0).val; omega
  | ⟨1, _⟩ => show win0_3.index t (1 : Fin 2) * 8192 + 1 * (y 1).val = (y 1).val; omega

/-- The argument array as the region finds it, as a matrix. -/
abbrev arg (c : Dev nD) : S4096x8192.Idx → Elt F .f32 := held m c main_arg0

/-- The input tile at point t is the band of rows 128 t .. 128 t + 127 of the argument array. -/
theorem tile_rows (c : Dev nD) (t : Fin cfg0.N) :
    tile m c 0 t = fun y : S128x8192.Idx => arg m c (ix2 (rowAt t (y 0)) (y 1)) := by
  funext y
  show arg m c (((cfg0.win 0).blk t).view.emb y) = _
  rw [emb_in]
  rfl

/-! ## What each point writes back -/

theorem flushed_left (c : Dev nD) (t : Fin cfg0.N) :
    (data m 0 c).flushed 1 t = ((cfg0.win 1).blk t).view.read (Elt F) (fromLeft (R := 4096) (C := 8192) (fill (F := F)) (arg m c)) := by
  show (cfg0.win 1).cut (grid0.coords t) ((data m 0 c).after 1 t) = _
  rw [after_left, left_payload, tile_rows]
  funext y
  show fromLeft (R := 128) (C := 8192) (fill (F := F)) (fun y' => arg m c (ix2 (rowAt t (y' 0)) (y' 1))) y
    = fromLeft (R := 4096) (C := 8192) (fill (F := F)) (arg m c) (((cfg0.win 1).blk t).view.emb y)
  rw [emb_left, fromLeft_rows]
  rfl

theorem flushed_mid (c : Dev nD) (t : Fin cfg0.N) :
    (data m 0 c).flushed 2 t = ((cfg0.win 2).blk t).view.read (Elt F) (arg m c) := by
  show (cfg0.win 2).cut (grid0.coords t) ((data m 0 c).after 2 t) = _
  rw [after_mid, tile_rows]
  funext y
  show arg m c (ix2 (rowAt t (y 0)) (y 1)) = arg m c (((cfg0.win 2).blk t).view.emb y)
  rw [emb_mid]
  rfl

theorem flushed_right (c : Dev nD) (t : Fin cfg0.N) :
    (data m 0 c).flushed 3 t = ((cfg0.win 3).blk t).view.read (Elt F) (fromRight (R := 4096) (C := 8192) (fill (F := F)) (arg m c)) := by
  show (cfg0.win 3).cut (grid0.coords t) ((data m 0 c).after 3 t) = _
  rw [after_right, right_payload, tile_rows]
  funext y
  show fromRight (R := 128) (C := 8192) (fill (F := F)) (fun y' => arg m c (ix2 (rowAt t (y' 0)) (y' 1))) y
    = fromRight (R := 4096) (C := 8192) (fill (F := F)) (arg m c) (((cfg0.win 3).blk t).view.emb y)
  rw [emb_right, fromRight_rows]
  rfl

/-! ## The bands cover the rows -/

theorem mem_left (t : Fin cfg0.N) (i : S4096x8192.Idx) :
    i ∈ ((cfg0.win 1).blk t).view.set ↔ ∀ a : Fin 2, win0_1.index t a * S128x8192.size a ≤ (i a).val ∧ (i a).val < win0_1.index t a * S128x8192.size a + S128x8192.size a := by
  show i ∈ ((View.whole main_v0_0).slice (win0_1.rect t)).set ↔ _
  rw [View.set_slice_whole, Rect.mem_set_unit]
  exact Iff.rfl

theorem mem_mid (t : Fin cfg0.N) (i : S4096x8192.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v0_1).slice (win0_2.rect t)).set ↔ _
  rw [View.set_slice_whole, Rect.mem_set_unit]
  exact Iff.rfl

theorem mem_right (t : Fin cfg0.N) (i : S4096x8192.Idx) :
    i ∈ ((cfg0.win 3).blk t).view.set ↔ ∀ a : Fin 2, win0_3.index t a * S128x8192.size a ≤ (i a).val ∧ (i a).val < win0_3.index t a * S128x8192.size a + S128x8192.size a := by
  show i ∈ ((View.whole main_v0_2).slice (win0_3.rect t)).set ↔ _
  rw [View.set_slice_whole, Rect.mem_set_unit]
  exact Iff.rfl

/-- The point whose band holds row r. -/
def bandOf (i : S4096x8192.Idx) : Fin cfg0.N :=
  ⟨(i 0).val / 128, by have h0 : (i 0).val < 4096 := (i 0).isLt; rw [points]; omega⟩

theorem covered_left (i : S4096x8192.Idx) : ∃ t : Fin cfg0.N, (cfg0.win 1).flush t = true ∧ i ∈ ((cfg0.win 1).blk t).view.set := by
  have h0 : (i 0).val < 4096 := (i 0).isLt
  have h1 : (i 1).val < 8192 := (i 1).isLt
  obtain ⟨-, -, e0, e1, -⟩ := index_facts (bandOf i)
  have eb : (bandOf i).val = (i 0).val / 128 := rfl
  refine ⟨bandOf i, flush0_1 _, ?_⟩
  rw [mem_left]
  intro a
  match a with
  | ⟨0, _⟩ => show win0_1.index (bandOf i) (0 : Fin 2) * 128 ≤ (i 0).val ∧ (i 0).val < win0_1.index (bandOf i) (0 : Fin 2) * 128 + 128; omega
  | ⟨1, _⟩ => show win0_1.index (bandOf i) (1 : Fin 2) * 8192 ≤ (i 1).val ∧ (i 1).val < win0_1.index (bandOf i) (1 : Fin 2) * 8192 + 8192; omega

theorem covered_mid (i : S4096x8192.Idx) : ∃ t : Fin cfg0.N, (cfg0.win 2).flush t = true ∧ i ∈ ((cfg0.win 2).blk t).view.set := by
  have h0 : (i 0).val < 4096 := (i 0).isLt
  have h1 : (i 1).val < 8192 := (i 1).isLt
  obtain ⟨-, -, -, -, e0, e1, -⟩ := index_facts (bandOf i)
  have eb : (bandOf i).val = (i 0).val / 128 := rfl
  refine ⟨bandOf i, flush0_2 _, ?_⟩
  rw [mem_mid]
  intro a
  match a with
  | ⟨0, _⟩ => show win0_2.index (bandOf i) (0 : Fin 2) * 128 ≤ (i 0).val ∧ (i 0).val < win0_2.index (bandOf i) (0 : Fin 2) * 128 + 128; omega
  | ⟨1, _⟩ => show win0_2.index (bandOf i) (1 : Fin 2) * 8192 ≤ (i 1).val ∧ (i 1).val < win0_2.index (bandOf i) (1 : Fin 2) * 8192 + 8192; omega

theorem covered_right (i : S4096x8192.Idx) : ∃ t : Fin cfg0.N, (cfg0.win 3).flush t = true ∧ i ∈ ((cfg0.win 3).blk t).view.set := by
  have h0 : (i 0).val < 4096 := (i 0).isLt
  have h1 : (i 1).val < 8192 := (i 1).isLt
  obtain ⟨-, -, -, -, -, -, e0, e1⟩ := index_facts (bandOf i)
  have eb : (bandOf i).val = (i 0).val / 128 := rfl
  refine ⟨bandOf i, flush0_3 _, ?_⟩
  rw [mem_right]
  intro a
  match a with
  | ⟨0, _⟩ => show win0_3.index (bandOf i) (0 : Fin 2) * 128 ≤ (i 0).val ∧ (i 0).val < win0_3.index (bandOf i) (0 : Fin 2) * 128 + 128; omega
  | ⟨1, _⟩ => show win0_3.index (bandOf i) (1 : Fin 2) * 8192 ≤ (i 1).val ∧ (i 1).val < win0_3.index (bandOf i) (1 : Fin 2) * 8192 + 8192; omega

/-! ## The three result arrays after the run -/

theorem left_array (c : Dev nD) : (data m 0 c).arrAt 1 cfg0.N = fromLeft (R := 4096) (C := 8192) (fill (F := F)) (arg m c) :=
  (data m 0 c).arrAt_eq_of_cover 1 _ (fun t _ => flushed_left m c t) covered_left

theorem mid_array (c : Dev nD) : (data m 0 c).arrAt 2 cfg0.N = arg m c :=
  (data m 0 c).arrAt_eq_of_cover 2 _ (fun t _ => flushed_mid m c t) covered_mid

theorem right_array (c : Dev nD) : (data m 0 c).arrAt 3 cfg0.N = fromRight (R := 4096) (C := 8192) (fill (F := F)) (arg m c) :=
  (data m 0 c).arrAt_eq_of_cover 3 _ (fun t _ => flushed_right m c t) covered_right

/-! ## The host tail -/

/-- Three matrices, each given a unit last axis, joined along it. -/
def stacked (a b d : S4096x8192.Idx → Elt F .f32) : S4096x8192x3.Idx → Elt F .f32 :=
  concatenate S4096x8192x3 2
    [⟨S4096x8192x1, broadcastInDim S4096x8192x1 ![0, 1] bcast_S4096x8192_S4096x8192x1_0_1 a⟩,
     ⟨S4096x8192x1, broadcastInDim S4096x8192x1 ![0, 1] bcast_S4096x8192_S4096x8192x1_0_1 b⟩,
     ⟨S4096x8192x1, broadcastInDim S4096x8192x1 ![0, 1] bcast_S4096x8192_S4096x8192x1_0_1 d⟩]
    concatenates_S4096x8192x1_S4096x8192x1_S4096x8192x1_S4096x8192x3_d2

theorem tail_result (c : Dev nD) :
    Pipeline.afterTail₀ cfgs (data m) 0 (atStart m) [hostOps1] c main_v4
      = stacked ((data m 0 c).arrAt 1 cfg0.N) ((data m 0 c).arrAt 2 cfg0.N) ((data m 0 c).arrAt 3 cfg0.N) := by
  unfold Pipeline.afterTail₀
  show StableHlo.after hostOps1 _ (Proc.devRef .tc main_v4) = _
  simp only [StableHlo.after_cons, StableHlo.after_nil]
  rw [Cert.LibNary3.nary3_result]
  repeat (first | rw [StableHlo.unary_result] | (rw [StableHlo.unary_result_ne]; rotate_left; decide))
  have e1 : Pipeline.withArrays (cfgs 0).spec c (atStart m c) (fun w => (data m 0 c).arrAt w (cfgs 0).N) (Proc.devRef .tc main_v0_0)
      = (data m 0 c).arrAt 1 cfg0.N := Pipeline.withArrays_arr spec0 launch0.win.arr_inj c _ _ 1
  have e2 : Pipeline.withArrays (cfgs 0).spec c (atStart m c) (fun w => (data m 0 c).arrAt w (cfgs 0).N) (Proc.devRef .tc main_v0_1)
      = (data m 0 c).arrAt 2 cfg0.N := Pipeline.withArrays_arr spec0 launch0.win.arr_inj c _ _ 2
  have e3 : Pipeline.withArrays (cfgs 0).spec c (atStart m c) (fun w => (data m 0 c).arrAt w (cfgs 0).N) (Proc.devRef .tc main_v0_2)
      = (data m 0 c).arrAt 3 cfg0.N := Pipeline.withArrays_arr spec0 launch0.win.arr_inj c _ _ 3
  rw [e1, e2, e3]
  rfl

/-! ## The run, read -/

/-- Every weakly fair execution of the program terminates with the result buffer at the three neighbour matrices of the
    argument array stacked, and the argument array as launched. -/
theorem value_run : θ_run defs (onTc (τ := τ) (main (F := F))) ⟨m, fun _ => 0, ρ⟩ fun r => ∀ c : Dev nD,
      r.2.mem ((c.tc : Thread nD τ).loc main_v4)
        = stacked (fromLeft (R := 4096) (C := 8192) (fill (F := F)) (m ((c.tc : Thread nD τ).loc main_arg0)))
            (m ((c.tc : Thread nD τ).loc main_arg0))
            (fromRight (R := 4096) (C := 8192) (fill (F := F)) (m ((c.tc : Thread nD τ).loc main_arg0)))
      ∧ r.2.mem ((c.tc : Thread nD τ).loc main_arg0) = m ((c.tc : Thread nD τ).loc main_arg0) :=
  (θ_run defs _ _).mono (fun r h c => ⟨
      ((h c).2 main_v4 (Pipeline.mem_restRefs_of main_v4 (by decide) (by decide))).trans
        ((tail_result m c).trans (by rw [left_array, mid_array, right_array]; rfl)),
      ((h c).1 0).trans (((data m 0 c).arrAt_in 0 rfl _).trans (data_A m c 0))⟩) (run m ρ)

/-- On the extended reals the fill value is the number 0. -/
theorem fill_ideal : fill (F := Ideal) = (0 : EReal) := Ideal.ofBits_zero_f32

end Cert.KernelIdeal.Result

end
-- ==== Proof.RefSide.lean ====
/-
  The reference builds its outer two matrices by cutting and padding: the argument without its last column, one column of
  the padding value in front, is the left-neighbour matrix; the argument without its first column, one column of the
  padding value behind, is the right-neighbour matrix. The padding value is the integer 0 converted to a float, which on
  the extended reals is the number 0.
-/
import proofs.«127405_j82626580840944_1_alg».proof.Proof.Gen.ReferenceIdeal.Read
import proofs.«127405_j82626580840944_1_alg».proof.Proof.Neighbours
import Idealize.ShloMosaic.PureOps.Ideal.Laws

noncomputable section

namespace Cert.ReferenceIdeal.Result

open Cert.ReferenceIdeal Cert.ReferenceIdeal.Gen Cert.Neighbours
open Idealize.ShloMosaic Idealize.ShloMosaic.TcCoe Idealize.SL.Sem

/-- The integer 0, converted, is the real number 0. -/
theorem pad_value : sitofp (F := Ideal) .f32 (constantI S_ 32 0#32) (Shape.Idx.first h_S_) = (0 : EReal) := by
  show (((0#32 : BitVec 32).toInt : ℝ) : EReal) = 0
  simp

/-- Cut the last column off, pad a zero column in front: the left neighbours. -/
theorem left_stage (x : S4096x8192.Idx → EReal) :
    pad S4096x8192 ![0, 1] ![0, 0] ![0, 0] (extractStridedSlice S4096x8191 ![0, 0] x slices_S4096x8192_S4096x8191_0_0)
        (sitofp (F := Ideal) .f32 (constantI S_ 32 0#32)) pads_S4096x8191_S4096x8192_000_100 h_S_
      = fromLeft (R := 4096) (C := 8192) (0 : EReal) x :=
  pad_front_of_init (R := 4096) (C := 8191) (0 : EReal) x _ h_S_ pad_value _ _

/-- Cut the first column off, pad a zero column behind: the right neighbours. -/
theorem right_stage (x : S4096x8192.Idx → EReal) :
    pad S4096x8192 ![0, 0] ![0, 1] ![0, 0] (extractStridedSlice S4096x8191 ![0, 1] x slices_S4096x8192_S4096x8191_0_1)
        (sitofp (F := Ideal) .f32 (constantI S_ 32 0#32)) pads_S4096x8191_S4096x8192_000_010 h_S_
      = fromRight (R := 4096) (C := 8192) (0 : EReal) x :=
  pad_back_of_tail (R := 4096) (C := 8191) (0 : EReal) x _ h_S_ pad_value _ _

end Cert.ReferenceIdeal.Result

end
-- ==== Proof.lean ====
/-
  A kernel that, for a matrix x of 4096 rows and 8192 columns, produces the array whose entry (r, c, n) is x (r, c + n - 1)
  for n = 0, 1, 2, with 0 where the column c + n - 1 does not exist, against a reference that builds the same array from
  slices and pads.

  The kernel works on tiles of 128 rows: it rotates the tile's columns cyclically by one place either way and overwrites
  the one wrapped column with 0 by a select on the column number; the three tiles go to three arrays, and host operations
  give each a unit last axis and join them. The reference cuts a column off x and pads a zero column on at the other side,
  twice, and joins x between the two in the same way. Both programs therefore end with the same join of three matrices,
  and the three matrices agree one by one: the left-neighbour matrix of x, x itself, the right-neighbour matrix of x
  (Proof/Neighbours.lean reads both constructions at an index). No entry is ever combined with another by arithmetic, so
  nothing here depends on the inputs being finite; on the extended reals the kernel's fill value (the float with the zero
  word) and the reference's padding value (the integer 0 converted) are both the number 0.

  The kernel's program has one region and four host operations after it; its run, for either reading of the floats, is
  Proof/KernelRun.lean and Proof/KernelIdealRun.lean, what its result arrays hold is Proof/KernelValue.lean, and the
  reference's two stages are Proof/RefSide.lean.
-/
import proofs.«127405_j82626580840944_1_alg».proof.Defs
import proofs.«127405_j82626580840944_1_alg».proof.Proof.Gen.Kernel
import proofs.«127405_j82626580840944_1_alg».proof.Proof.Gen.KernelIdeal
import proofs.«127405_j82626580840944_1_alg».proof.Proof.Gen.ReferenceIdeal
import proofs.«127405_j82626580840944_1_alg».proof.Proof.Gen.Pre_finite_inputs
import proofs.«127405_j82626580840944_1_alg».proof.Proof.KernelRun
import proofs.«127405_j82626580840944_1_alg».proof.Proof.KernelValue
import proofs.«127405_j82626580840944_1_alg».proof.Proof.RefSide
import Idealize.ShloMosaic.Adequacy
import Idealize.ShloMosaic.Init

noncomputable section

namespace Cert.Proof

open Idealize.ShloMosaic Idealize.SL.Sem

/-- The word-level program terminates and leaves its argument as launched. -/
theorem frame_kernel : Cert.frame_Kernel := fun m ρ _ => Cert.Kernel.Run.frame m ρ

/-- So does the idealized program. -/
theorem frame_ideal : Cert.frame_KernelIdeal := fun m ρ _ => Cert.KernelIdeal.Run.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the left neighbours, the argument and the right neighbours joined along a new last axis. -/
theorem algebraic : Cert.algebraic_KernelIdeal_ReferenceIdeal := by
  intro m ρ m' ρ' _ hagree
  refine ⟨_, Cert.KernelIdeal.Result.value_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c, Cert.ReferenceIdeal.Result.left_stage, Cert.ReferenceIdeal.Result.right_stage,
    Cert.KernelIdeal.Result.fill_ideal]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
